-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S16000x64 : Shape := ⟨2, ![16000, 64]⟩
abbrev S1x64 : Shape := ⟨2, ![1, 64]⟩

abbrev nBuf : Space → Nat
  | .hbm => 58
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000, .f32⟩
  | .hbm, ⟨33, _⟩ => ⟨S1600000, .f32⟩
  | .hbm, ⟨34, _⟩ => ⟨S_, .f32⟩
  | .hbm, ⟨35, _⟩ => ⟨S1600000, .f32⟩
  | .hbm, ⟨36, _⟩ => ⟨S1600000, .f32⟩
  | .hbm, ⟨37, _⟩ => ⟨S_, .f32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S1600000x64, .bf16⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .local _ .vmem, ⟨0, _⟩ => ⟨S16000x64, .bf16⟩
  | .local _ .vmem, ⟨1, _⟩ => ⟨S16000x64, .bf16⟩
  | .local _ .vmem, ⟨2, _⟩ => ⟨S64x64, .f32⟩
  | .local _ .vmem, ⟨3, _⟩ => ⟨S64, .f32⟩
  | .local _ .vmem, ⟨4, _⟩ => ⟨S16000x64, .f32⟩
  | .local _ .vmem, ⟨5, _⟩ => ⟨S16000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bitsLt_bf16_f32 : FTy.bits .bf16 < FTy.bits .f32
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S16000x64 : S1x64.Broadcasts S16000x64
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  dot_S16000x64_S64x64_S16000x64_1_0_0_1_n_n_wf : DotDims.WF S16000x64 S64x64 S16000x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1600000x64.size a
  hwx0_0 : ∀ i : grid0.Coords, EltTy.bits .bf16 = 32 ∨ (Rect.block (s := S1600000x64) S16000x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x64.size a ≤ S1600000x64.size a
  hwx0_3 : ∀ i : grid0.Coords, EltTy.bits .f32 = 32 ∨ (Rect.block (s := S1600000x64) S16000x64.size (cc0_transform_3 i) (hinb0_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v38) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S16000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 61
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000, .f32⟩
  | .hbm, ⟨33, _⟩ => ⟨S1600000, .f32⟩
  | .hbm, ⟨34, _⟩ => ⟨S_, .f32⟩
  | .hbm, ⟨35, _⟩ => ⟨S1600000, .f32⟩
  | .hbm, ⟨36, _⟩ => ⟨S1600000, .f32⟩
  | .hbm, ⟨37, _⟩ => ⟨S_, .f32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S64x64, .f32⟩
  | .hbm, ⟨53, _⟩ => ⟨S1600000x64, .f32⟩
  | .hbm, ⟨54, _⟩ => ⟨S1x64, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  transposes_S64x64_S64x64_1_0 : S64x64.Transposes [1, 0] S64x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.BlockProduct.lean ====
/-
  What one grid step of the kernel stores, entry by entry.

  The body loads a block of 16000 edge rows `x`, the whole weight matrix `W` and the bias `b`, and stores
  `x · Wᵀ + b`: the matrix product is taken against the transposed weights into a zero accumulator, so its
  entry `(p, q)` is `Σ_k x(p, k) · Wᵀ(k, q) = Σ_k x(p, k) · W(q, k)`; the bias row is broadcast down the
  16000 rows. Narrowing the operands' float format changes nothing over the extended reals.
-/
import proofs.«150592_j52046413693115_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BlockProduct

open Cert.KernelIdeal Cert.KernelIdeal.Gen Idealize.ShloMosaic Idealize.ShloMosaic.ValueIdx

/-! ## The product's operand indices, axis by axis

At output entry `i = (p, q)` and contraction position `κ` the left operand is read at `(p, κ)` and the
right operand at `(κ, q)`. -/

theorem lhs_axis0 (i : S16000x64.Idx) (κ : dot_S16000x64_S64x64_S16000x64_1_0_0_1_n_n.contr.Idx) :
    (dot_S16000x64_S64x64_S16000x64_1_0_0_1_n_n.lhsIdx i κ 0).val = (i 0).val := by
  unfold DotDims.lhsIdx
  rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
  rfl
theorem lhs_axis1 (i : S16000x64.Idx) (κ : dot_S16000x64_S64x64_S16000x64_1_0_0_1_n_n.contr.Idx) :
    (dot_S16000x64_S64x64_S16000x64_1_0_0_1_n_n.lhsIdx i κ 1).val = (κ ⟨0, by decide⟩).val :=
  dot_S16000x64_S64x64_S16000x64_1_0_0_1_n_n.lhsIdx_val_of_single rfl i κ
theorem rhs_axis0 (i : S16000x64.Idx) (κ : dot_S16000x64_S64x64_S16000x64_1_0_0_1_n_n.contr.Idx) :
    (dot_S16000x64_S64x64_S16000x64_1_0_0_1_n_n.rhsIdx i κ 0).val = (κ ⟨0, by decide⟩).val :=
  dot_S16000x64_S64x64_S16000x64_1_0_0_1_n_n.rhsIdx_val_of_single rfl i κ
theorem rhs_axis1 (i : S16000x64.Idx) (κ : dot_S16000x64_S64x64_S16000x64_1_0_0_1_n_n.contr.Idx) :
    (dot_S16000x64_S64x64_S16000x64_1_0_0_1_n_n.rhsIdx i κ 1).val = (i 1).val := by
  unfold DotDims.rhsIdx
  rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
  rfl

/-- A 16000×64 by 64×64 product into the zero accumulator, at entry `(p, q)`: `Σ_k l(p, k) · r(k, q)`. -/
theorem product_at (l : FVec Ideal S16000x64 .bf16) (r : FVec Ideal S64x64 .bf16) (p : Fin 16000) (q : Fin 64) :
    matmul dot_S16000x64_S64x64_S16000x64_1_0_0_1_n_n none l r (constant S16000x64 .f32 0x00000000#32) (ix2 p q)
      = ∑ k : Fin 64, l (ix2 p k) * r (ix2 k q) := by
  refine (Ideal.matmul_constant_zero_apply dot_S16000x64_S64x64_S16000x64_1_0_0_1_n_n none l r (ix2 p q)).trans ?_
  rw [← Equiv.sum_comp (contrEquiv1 dot_S16000x64_S64x64_S16000x64_1_0_0_1_n_n 64 rfl rfl).symm]
  refine Finset.sum_congr rfl fun k _ => ?_
  have hk := contrEquiv1_symm_val dot_S16000x64_S64x64_S16000x64_1_0_0_1_n_n 64 rfl rfl k
  have el : dot_S16000x64_S64x64_S16000x64_1_0_0_1_n_n.lhsIdx (ix2 p q) ((contrEquiv1 dot_S16000x64_S64x64_S16000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S16000x64_S64x64_S16000x64_1_0_0_1_n_n.rhsIdx (ix2 p q) ((contrEquiv1 dot_S16000x64_S64x64_S16000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- The stored block at entry `(p, q)`: `Σ_k x(p, k) · W(q, k) + b(q)`, of the loaded edge rows `x`, weights `W`
    and bias `b`. -/
theorem stored_at (x : Vec Ideal S16000x64 .bf16) (W : Vec Ideal S64x64 .f32) (b : Vec Ideal S64 .f32)
    (p : Fin 16000) (q : Fin 64) :
    k0_pay1 (F := Ideal) x W b (ix2 p q) = (∑ k : Fin 64, x (ix2 p k) * W (ix2 q k)) + b (ix1 q) := by
  unfold k0_pay1
  refine (addf_apply _ _ _).trans ?_
  refine congrArg₂ (· + ·) ?_ ?_
  · refine (product_at _ _ p q).trans ?_
    refine Finset.sum_congr rfl fun k _ => ?_
    refine congrArg₂ (· * ·) ?_ ?_
    · exact congrFun (shapeCast_self x shapeCasts_S16000x64_S16000x64) (ix2 p k)
    · exact transpose_ix2_apply (truncf (F := Ideal) .bf16 W bitsLt_bf16_f32) transposes_S64x64_p1_0_S64x64 k q
  · exact (broadcastTo_1b_ab_apply (shapeCast S1x64 b shapeCasts_S64_S1x64) broadcasts_S1x64_S16000x64 p q).trans
      (shapeCast_a_1a_apply b shapeCasts_S64_S1x64 0 q)

end Cert.KernelIdeal.BlockProduct

end
-- ==== Proof.MessageSpec.lean ====
/-
  The array both programs hand to the final scatter-sum: one message per edge.

  For edge `e` and output feature `o` the message is the inner product of the edge's feature row `x(e, ·)`
  (the source node's features, already scaled by the edge's normalisation) with row `o` of the weight
  matrix, plus the bias entry `o`:

      msg x W b (e, o) = Σ_{k < 64} x(e, k) · W(o, k) + b(o).

  The sum runs over the 64 input features in one fixed order on both sides, so the two programs agree on
  every extended real input: no law beyond re-indexing a finite sum is used, and in particular nothing
  here needs the inputs to be finite.
-/
import Idealize.ShloMosaic.PureOps.Ideal
import Idealize.ShloMosaic.Lib.ValueIdx

noncomputable section

namespace Cert.Message

open Idealize.ShloMosaic Idealize.ShloMosaic.ValueIdx

/-- The message of edge `e` at output feature `o`: `Σ_k x(e, k) · W(o, k) + b(o)`. -/
def msgAt (x : (⟨2, ![1600000, 64]⟩ : Shape).Idx → EReal) (W : (⟨2, ![64, 64]⟩ : Shape).Idx → EReal)
    (b : (⟨1, ![64]⟩ : Shape).Idx → EReal) (e : Fin 1600000) (o : Fin 64) : EReal :=
  (∑ k : Fin 64, x (ix2 e k) * W (ix2 o k)) + b (ix1 o)

/-- All messages, as one array over (edge, output feature). -/
def msg (x : (⟨2, ![1600000, 64]⟩ : Shape).Idx → EReal) (W : (⟨2, ![64, 64]⟩ : Shape).Idx → EReal)
    (b : (⟨1, ![64]⟩ : Shape).Idx → EReal) : (⟨2, ![1600000, 64]⟩ : Shape).Idx → EReal :=
  fun i => msgAt x W b (i 0) (i 1)

theorem msg_ix2 (x : (⟨2, ![1600000, 64]⟩ : Shape).Idx → EReal) (W : (⟨2, ![64, 64]⟩ : Shape).Idx → EReal)
    (b : (⟨1, ![64]⟩ : Shape).Idx → EReal) (e : Fin 1600000) (o : Fin 64) :
    msg x W b (ix2 e o) = (∑ k : Fin 64, x (ix2 e k) * W (ix2 o k)) + b (ix1 o) := rfl

end Cert.Message

end
-- ==== Proof.RegionValue.lean ====
/-
  The message array after the kernel's region.

  The region has 100 grid steps. Step `t` reads edge rows `16000·t … 16000·t + 15999` of the scaled feature
  array (all 64 columns), the whole weight matrix and the whole bias, and writes rows
  `16000·t … 16000·t + 15999` of the output. So what step `t` writes back is block `t` of ONE array, the
  message array `msg x W b` of the arrays as the region finds them; the 100 blocks tile the 1600000 rows
  (row `r` lies in block `r / 16000`), hence the output array ends as `msg x W b`.
-/
import proofs.«150592_j52046413693115_1_alg».proof.Proof.Gen.KernelIdeal.Frame
import proofs.«150592_j52046413693115_1_alg».proof.Proof.BlockProduct
import proofs.«150592_j52046413693115_1_alg».proof.Proof.MessageSpec

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem off2 : (![0, 0] : Fin 2 → Nat) = fun _ => 0 := funext fun a => by fin_cases a <;> rfl
theorem off1 : (![0] : Fin 1 → Nat) = fun _ => 0 := funext fun a => by fin_cases a <;> rfl

/-- Where each window's block sits at step `t`: the edge rows' and the output's block index on the row axis is `t`
    itself, every other block index is `0`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-! ## The input blocks, read off the arrays as the region finds them -/

/-- Step `t`'s block of edge rows, at `(p, k)`, is the scaled feature array at row `16000·t + p`, column `k`. -/
theorem rows_block (c : Dev nD) (t : Fin cfg0.N) (p : Fin 16000) (k : Fin 64) (hr : t.val * 16000 + p.val < 1600000) :
    iblk m c 0 t (ix2 p k) = V m c main_v38 (ix2 ⟨t.val * 16000 + p.val, hr⟩ k) := by
  show V m c main_v38 (((cfg0.win 0).blk t).view.emb (ix2 p k)) = V m c main_v38 _
  obtain ⟨e0, e1, -⟩ := block_indices t
  have h : ((cfg0.win 0).blk t).view.emb (ix2 p k) = ix2 ⟨t.val * 16000 + p.val, hr⟩ k := by
    funext a; apply Fin.ext
    match a with
    | ⟨0, _⟩ => show win0_0.index t (0 : Fin 2) * 16000 + 1 * p.val = t.val * 16000 + p.val; omega
    | ⟨1, _⟩ => show win0_0.index t (1 : Fin 2) * 64 + 1 * k.val = k.val; omega
  rw [h]

/-- Every step's block of the weights is the whole weight matrix. -/
theorem weights_block (c : Dev nD) (t : Fin cfg0.N) : (iblk m c 1 t : Vec Ideal S64x64 .f32) = V m c main_arg2 := by
  funext y
  show V m c main_arg2 (((cfg0.win 1).blk t).view.emb y) = V m c main_arg2 y
  obtain ⟨-, -, e2, e3, -⟩ := block_indices t
  have h : ((cfg0.win 1).blk t).view.emb y = y := by
    funext a; apply Fin.ext
    match a with
    | ⟨0, _⟩ => show win0_1.index t (0 : Fin 2) * 64 + 1 * (y 0).val = (y 0).val; omega
    | ⟨1, _⟩ => show win0_1.index t (1 : Fin 2) * 64 + 1 * (y 1).val = (y 1).val; omega
  rw [h]

/-- Every step's block of the bias is the whole bias vector. -/
theorem bias_block (c : Dev nD) (t : Fin cfg0.N) : (iblk m c 2 t : Vec Ideal S64 .f32) = V m c main_arg3 := by
  funext y
  show V m c main_arg3 (((cfg0.win 2).blk t).view.emb y) = V m c main_arg3 y
  obtain ⟨-, -, -, -, e4, -⟩ := block_indices t
  have h : ((cfg0.win 2).blk t).view.emb y = y := by
    funext a; apply Fin.ext
    match a with
    | ⟨0, _⟩ => show win0_2.index t (0 : Fin 1) * 64 + 1 * (y 0).val = (y 0).val; omega
  rw [h]

/-! ## One stored entry is one entry of the message array -/

/-- If `x` is rows `16000·T …` of `X`, the stored block's entry `j` is the message array's entry at row
    `16000·T + j₀`, column `j₁`. -/
theorem stored_eq_msg (X : (⟨2, ![1600000, 64]⟩ : Shape).Idx → EReal) (Wt : (⟨2, ![64, 64]⟩ : Shape).Idx → EReal)
    (bs : (⟨1, ![64]⟩ : Shape).Idx → EReal)
    (x : Vec Ideal S16000x64 .bf16) (W : Vec Ideal S64x64 .f32) (b : Vec Ideal S64 .f32) (T : Nat) (hT : T < 100)
    (hx : ∀ (p : Fin 16000) (k : Fin 64) (hr : T * 16000 + p.val < 1600000), x (ix2 p k) = X (ix2 ⟨T * 16000 + p.val, hr⟩ k))
    (hW : W = Wt) (hb : b = bs)
    (j : S16000x64.Idx) (i : S1600000x64.Idx) (h0 : (i 0).val = T * 16000 + (j 0).val) (h1 : (i 1).val = (j 1).val) :
    k0_pay1 (F := Ideal) x W b j = Cert.Message.msg X Wt bs i := by
  obtain ⟨p, q, rfl⟩ : ∃ (p : Fin 16000) (q : Fin 64), j = ix2 p q := ⟨j 0, j 1, eq_ix2 j⟩
  obtain ⟨e, o, rfl⟩ : ∃ (e : Fin 1600000) (o : Fin 64), i = ix2 e o := ⟨i 0, i 1, eq_ix2 i⟩
  have hr : T * 16000 + p.val < 1600000 := by have := p.isLt; omega
  have he : e = ⟨T * 16000 + p.val, hr⟩ := Fin.ext h0
  have ho : o = q := Fin.ext h1
  subst he ho hW hb
  rw [BlockProduct.stored_at, Cert.Message.msg_ix2]
  refine congrArg₂ (· + ·) (Finset.sum_congr rfl fun k _ => ?_) rfl
  rw [hx p k hr]

/-! ## From the blocks to the array -/

/-- WHAT STEP `t` WRITES BACK is block `t` of the message array of the arrays as the region finds them. -/
theorem flushed_eq (c : Dev nD) (t : Fin cfg0.N) :
    (dats m 0 c).flushed 3 t = ((cfg0.win 3).blk t).view.read (Elt Ideal)
      (Cert.Message.msg (V m c main_v38) (V m c main_arg2) (V m c main_arg3)) := by
  show (cfg0.win 3).cut (grid0.coords t) ((dats m 0 c).after 3 t) = _
  rw [after0_3]
  unfold out0_3
  rw [View.canon_unit_zero off2]
  simp only [View.ld_unit_zero (S := S16000x64) off2, View.ld_unit_zero (S := S64x64) off2, View.ld_unit_zero (S := S64) off1]
  obtain ⟨-, -, -, -, -, e5, e6⟩ := block_indices t
  have hN : t.val < 100 := by have h := t.isLt; have hN : cfg0.N = 100 := N_0; omega
  funext j
  exact stored_eq_msg (V m c main_v38) (V m c main_arg2) (V m c main_arg3) (iblk m c 0 t) (iblk m c 1 t) (iblk m c 2 t) t.val hN
    (fun p k hr => rows_block m c t p k hr) (weights_block m c t) (bias_block m c t) j (((cfg0.win 3).blk t).view.emb j)
    (by show win0_3.index t (0 : Fin 2) * 16000 + 1 * (j 0).val = t.val * 16000 + (j 0).val; omega)
    (by show win0_3.index t (1 : Fin 2) * 64 + 1 * (j 1).val = (j 1).val; omega)

/-- An index of the output array is in step `t`'s block iff each coordinate is in the block's range on its axis. -/
theorem mem_blk (t : Fin cfg0.N) (i : S1600000x64.Idx) :
    i ∈ ((cfg0.win 3).blk t).view.set ↔ ∀ a : Fin 2, win0_3.index t a * S16000x64.size a ≤ (i a).val ∧ (i a).val < win0_3.index t a * S16000x64.size a + S16000x64.size a := by
  show i ∈ ((View.whole main_v39).slice (win0_3.rect t)).set ↔ _
  rw [View.set_slice_whole, Rect.mem_set_unit]
  exact Iff.rfl

/-- Every entry of the output array is written by some step: row `r` by step `r / 16000`. -/
theorem covered (i : S1600000x64.Idx) :
    ∃ t : Fin cfg0.N, (cfg0.win 3).flush t = true ∧ i ∈ ((cfg0.win 3).blk t).view.set := by
  have hi0 : (i 0).val < 1600000 := (i 0).isLt
  have hi1 : (i 1).val < 64 := (i 1).isLt
  have hN : cfg0.N = 100 := N_0
  have ht : (i 0).val / 16000 < cfg0.N := by rw [hN]; omega
  obtain ⟨-, -, -, -, -, e5, e6⟩ := block_indices ⟨(i 0).val / 16000, ht⟩
  have e5' : win0_3.index ⟨(i 0).val / 16000, ht⟩ (0 : Fin 2) = (i 0).val / 16000 := e5
  refine ⟨⟨(i 0).val / 16000, ht⟩, flush0_3 _, ?_⟩
  rw [mem_blk]
  intro a
  match a with
  | ⟨0, _⟩ => show win0_3.index ⟨(i 0).val / 16000, ht⟩ (0 : Fin 2) * 16000 ≤ (i 0).val ∧ (i 0).val < win0_3.index ⟨(i 0).val / 16000, ht⟩ (0 : Fin 2) * 16000 + 16000; omega
  | ⟨1, _⟩ => show win0_3.index ⟨(i 0).val / 16000, ht⟩ (1 : Fin 2) * 64 ≤ (i 1).val ∧ (i 1).val < win0_3.index ⟨(i 0).val / 16000, ht⟩ (1 : Fin 2) * 64 + 64; omega

/-- THE OUTPUT ARRAY after the region: the message array of the arrays as the region finds them. -/
theorem final (c : Dev nD) :
    (dats m 0 c).arrAt 3 cfg0.N = Cert.Message.msg (V m c main_v38) (V m c main_arg2) (V m c main_arg3) :=
  (dats m 0 c).arrAt_eq_of_cover 3 _ (fun t _ => flushed_eq m c t) covered

end Cert.KernelIdeal.RegionValue

end
-- ==== Proof.KernelRun.lean ====
/-
  The kernel program's run, read to its result.

  After the region the program scatter-adds the messages into a zero array of 100000 × 64, row `e` of the
  messages going to the row its target index names. That last stretch is one function `aggregate` of the
  target indices and the message array; the region's output array is the message array of the arrays the
  region finds (the scaled source rows, the weights, the bias), so the program's result is `aggregate` of
  the target indices and those messages, and its arguments end as they began.
-/
import proofs.«150592_j52046413693115_1_alg».proof.Proof.Gen.KernelIdeal.Frame
import proofs.«150592_j52046413693115_1_alg».proof.Proof.RegionValue
import Idealize.ShloMosaic.Lib.StableHlo.Run

set_option maxRecDepth 16384

noncomputable section

namespace Cert.KernelIdeal.KernelRun

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

/-- The scatter-sum over target nodes: from the zero array, message row `e` is added into the row that
    `tgt e` names. -/
def aggregate (tgt : (⟨S1600000, .i32⟩ : BufTy).Contents (Elt Ideal)) (u : (⟨S1600000x64, .f32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 tgt) u

variable (m : (ℓ : Loc nD τ sig) → Buf (Elt Ideal) ℓ) (ρ : Dev nD → PrngReg)

/-- The program's result after the lines that follow the region: the scatter-sum of the region's messages. -/
theorem result_eq (c : Dev nD) :
    Pipeline.afterTail₀ cfgs (dats m) 0 (V0 m) [hostOps1] c main_v42
      = aggregate (V m c main_v3) (Cert.Message.msg (V m c main_v38) (V m c main_arg2) (V m c main_arg3)) := by
  unfold Pipeline.afterTail₀
  show StableHlo.after hostOps1 _ (Proc.devRef .tc main_v42) = _
  after_results
  have hmsg : Pipeline.withArrays (cfgs 0).spec c (V0 m c) (fun w => (dats m 0 c).arrAt w (cfgs 0).N) (Proc.devRef .tc main_v39)
      = Cert.Message.msg (V m c main_v38) (V m c main_arg2) (V m c main_arg3) :=
    (Pipeline.withArrays_arr spec0 launch0.win.arr_inj c _ _ 3).trans (RegionValue.final m c)
  have htgt : Pipeline.withArrays (cfgs 0).spec c (V0 m c) (fun w => (dats m 0 c).arrAt w (cfgs 0).N) (Proc.devRef .tc main_v3)
      = V m c main_v3 :=
    Pipeline.withArrays_of_ne _ c (V0 m c) _ main_v3 (by exact (by decide : ∀ w, Pipeline.arrRef spec0 w ≠ main_v3))
  rw [hmsg, htgt]
  rfl

/-- Every weakly fair execution of the kernel program ends with the result at the scatter-sum of the messages
    and the four arguments unchanged. -/
theorem run : θ_run defs (onTc (τ := τ) (main (F := Ideal))) ⟨m, fun _ => 0, ρ⟩ (fun r => ∀ c : Dev nD,
      r.2.mem ((c.tc : Thread nD τ).loc main_v42)
        = aggregate (V m c main_v3) (Cert.Message.msg (V m c main_v38) (V m c main_arg2) (V m c main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v42 (Pipeline.mem_restRefs_of main_v42 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.KernelRun

end
-- ==== Proof.HostStages.lean ====
/-
  What the kernel program computes on the host before its region, and that the reference computes the same.

  From the edge list (row 0: source nodes, row 1: target nodes) both programs form
    * the in-degree of every node: ones scatter-added at the target indices,
    * for each edge the two degrees `deg(tgt)`, `deg(src)`, read at the indices with negatives wrapped once
      (`i < 0 ↦ i + 100000`),
    * the edge's normalisation `1 / (sqrt(deg(tgt) · deg(src)) + ε)`,
    * the source node's 64 features times that normalisation: the scaled rows.
  The kernel program lists the two degree reads in the other order and narrows the scaled rows to a shorter
  float format before its region, which changes nothing over the extended reals. The stages below name the
  kernel program's values; each is then matched with the reference's stage of the same meaning, one
  operation at a time.
-/
import proofs.«150592_j52046413693115_1_alg».proof.Proof.Gen.KernelIdeal
import proofs.«150592_j52046413693115_1_alg».proof.Proof.Gen.ReferenceIdeal.Read

set_option maxRecDepth 16384

noncomputable section

namespace Cert.KernelIdeal.HostStages

open Cert.KernelIdeal Cert.KernelIdeal.Gen
open Idealize.ShloMosaic Idealize.ShloMosaic.TcCoe

/-! ## The stages, in the kernel program's vocabulary -/

/-- The edges' source nodes: row 0 of the edge list. -/
def src (a1 : (⟨S2x1600000, .i32⟩ : BufTy).Contents (Elt Ideal)) : (⟨S1600000, .i32⟩ : BufTy).Contents (Elt Ideal) :=
  shapeCast S1600000 (extractStridedSlice S1x1600000 ![0, 0] a1 slices_S2x1600000_S1x1600000_0_0) shapeCasts_S1x1600000_S1600000

/-- The edges' target nodes: row 1 of the edge list. -/
def tgt (a1 : (⟨S2x1600000, .i32⟩ : BufTy).Contents (Elt Ideal)) : (⟨S1600000, .i32⟩ : BufTy).Contents (Elt Ideal) :=
  shapeCast S1600000 (extractStridedSlice S1x1600000 ![1, 0] a1 slices_S2x1600000_S1x1600000_1_0) shapeCasts_S1x1600000_S1600000

/-- A node index with a negative value wrapped once: `i < 0 ↦ i + 100000`. -/
def wrap (x : (⟨S1600000, .i32⟩ : BufTy).Contents (Elt Ideal)) : (⟨S1600000, .i32⟩ : BufTy).Contents (Elt Ideal) :=
  select (cmpi .slt x (broadcastInDim S1600000 ![] bcast_S_S1600000 (constantI S_ 32 0#32)))
    (addi x (broadcastInDim S1600000 ![] bcast_S_S1600000 (constantI S_ 32 100000#32))) x

/-- The in-degree of every node: a one scatter-added per edge at the edge's target. -/
def deg (a1 : (⟨S2x1600000, .i32⟩ : BufTy).Contents (Elt Ideal)) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 (tgt a1))
    (broadcastInDim S1600000 ![] bcast_S_S1600000 (constant (F := Ideal) S_ .f32 0x3F800000#32))

/-- The degree read per edge at the node indices `ix`. -/
def degAt (a1 : (⟨S2x1600000, .i32⟩ : BufTy).Contents (Elt Ideal)) (ix : (⟨S1600000, .i32⟩ : BufTy).Contents (Elt Ideal)) :
    (⟨S1600000, .f32⟩ : BufTy).Contents (Elt Ideal) :=
  Host.gather gather_S100000_S1600000x1_S1600000_n_0_n_n_0_1_1 (deg a1)
    (broadcastInDim S1600000x1 ![0] bcast_S1600000_S1600000x1_0 ix)

/-- The edge's normalisation `1 / (sqrt(deg(tgt) · deg(src)) + ε)`. -/
def norm (a1 : (⟨S2x1600000, .i32⟩ : BufTy).Contents (Elt Ideal)) : (⟨S1600000, .f32⟩ : BufTy).Contents (Elt Ideal) :=
  Host.divf (F := Ideal) (broadcastInDim S1600000 ![] bcast_S_S1600000 (constant (F := Ideal) S_ .f32 0x3F800000#32))
    (addf (Host.sqrt (F := Ideal) (mulf (degAt a1 (wrap (tgt a1))) (degAt a1 (wrap (src a1)))))
      (broadcastInDim S1600000 ![] bcast_S_S1600000 (constant (F := Ideal) S_ .f32 0x322BCC77#32)))

/-- The scaled rows: each edge's source features times the edge's normalisation. -/
def rows (a0 : (⟨S100000x64, .f32⟩ : BufTy).Contents (Elt Ideal)) (a1 : (⟨S2x1600000, .i32⟩ : BufTy).Contents (Elt Ideal)) :
    (⟨S1600000x64, .f32⟩ : BufTy).Contents (Elt Ideal) :=
  mulf (F := Ideal) (Host.gather gather_S100000x64_S1600000x1_S1600000x64_1_0_n_n_0_1_164 a0
      (broadcastInDim S1600000x1 ![0] bcast_S1600000_S1600000x1_0 (wrap (src a1))) : FVec Ideal S1600000x64 .f32)
    (broadcastInDim S1600000x64 ![0, 1] bcast_S1600000x1_S1600000x64_0_1
      (broadcastInDim S1600000x1 ![0] bcast_S1600000_S1600000x1_0 (norm a1)))

/-! ## Each stage is the reference's stage of the same meaning

One operation at a time: with the operands already named by the reference's stages, the two sides are the same
operation of the same operands. -/

section Agree

open Cert.ReferenceIdeal.Read

variable (a0 : (⟨S100000x64, .f32⟩ : BufTy).Contents (Elt Ideal)) (a1 : (⟨S2x1600000, .i32⟩ : BufTy).Contents (Elt Ideal))

theorem src_eq : src a1 = val_main_v1 (F := Ideal) a1 := rfl
theorem tgt_eq : tgt a1 = val_main_v3 (F := Ideal) a1 := rfl

/-- The reference wraps the target indices once, for its first degree read. -/
theorem wrap_tgt_eq : wrap (val_main_v3 (F := Ideal) a1) = val_main_v12 (F := Ideal) a1 := rfl
/-- It wraps the source indices twice: for its second degree read, -/
theorem wrap_src_eq : wrap (val_main_v1 (F := Ideal) a1) = val_main_v19 (F := Ideal) a1 := rfl
/-- and again for the feature read: the same indices. -/
theorem wrap_src_eq' : wrap (val_main_v1 (F := Ideal) a1) = val_main_v32 (F := Ideal) a1 := rfl

theorem deg_eq : deg a1 = val_main_v7 (F := Ideal) a1 := by
  unfold deg
  rw [tgt_eq]
  rfl

theorem deg_tgt_eq : degAt a1 (wrap (tgt a1)) = val_main_v14 (F := Ideal) a1 := by
  unfold degAt
  rw [deg_eq, tgt_eq, wrap_tgt_eq]
  rfl

theorem deg_src_eq : degAt a1 (wrap (src a1)) = val_main_v21 (F := Ideal) a1 := by
  unfold degAt
  rw [deg_eq, src_eq, wrap_src_eq]
  rfl

theorem norm_eq : norm a1 = val_main_v27 (F := Ideal) a1 := by
  unfold norm
  rw [deg_tgt_eq, deg_src_eq]
  rfl

theorem rows_eq : rows a0 a1 = val_main_v37 (F := Ideal) a0 a1 := by
  unfold rows
  rw [src_eq, wrap_src_eq', norm_eq]
  rfl

end Agree

end Cert.KernelIdeal.HostStages

end
-- ==== Proof.HostPrefix.lean ====
/-
  The two arrays the kernel's region (and the lines after it) read from the host lines before it: the target
  indices and the scaled rows. Each is the corresponding stage of the host computation applied to the
  program's arguments; narrowing the scaled rows to a shorter float format is the identity over the
  extended reals.
-/
import proofs.«150592_j52046413693115_1_alg».proof.Proof.Gen.KernelIdeal.Frame
import proofs.«150592_j52046413693115_1_alg».proof.Proof.HostStages
import Idealize.ShloMosaic.Lib.StableHlo.Run

set_option maxRecDepth 16384

noncomputable section

namespace Cert.KernelIdeal.HostPrefix

open Cert.KernelIdeal Cert.KernelIdeal.Gen Cert.KernelIdeal.HostStages
open Idealize.ShloMosaic Idealize.ShloMosaic.TcCoe Idealize.ShloMosaic.StableHlo
open Idealize.SL Idealize.SL.Sem

variable (m : (ℓ : Loc nD τ sig) → Buf (Elt Ideal) ℓ)

/-- The target indices, as the region (and the lines after it) find them. -/
theorem V_targets (c : Dev nD) :
    (V m c main_v3 : (⟨S1600000, .i32⟩ : BufTy).Contents (Elt Ideal)) = tgt (m ((c : Thread nD τ).loc main_arg1)) := by
  show StableHlo.after hostOps0 (fun b => m (c, b)) (Proc.devRef .tc main_v3) = _
  after_results
  rfl

/-- Narrowing an array's float format changes no entry over the extended reals. -/
theorem narrow_id (x : FVec Ideal S1600000x64 .f32) : truncf (F := Ideal) .bf16 x bitsLt_bf16_f32 = x :=
  funext fun _ => rfl

set_option maxHeartbeats 2000000 in
/-- The region's first operand as the host lines leave it: the scaled rows, narrowed. -/
theorem V_rows_narrowed (c : Dev nD) :
    V m c main_v38
      = truncf (F := Ideal) .bf16 (rows (m ((c : Thread nD τ).loc main_arg0)) (m ((c : Thread nD τ).loc main_arg1))) bitsLt_bf16_f32 := by
  show StableHlo.after hostOps0 (fun b => m (c, b)) (Proc.devRef .tc main_v38) = _
  after_results_simp
  rfl

/-- The region's first operand: the scaled rows. -/
theorem V_rows (c : Dev nD) :
    (V m c main_v38 : (⟨S1600000x64, .f32⟩ : BufTy).Contents (Elt Ideal))
      = rows (m ((c : Thread nD τ).loc main_arg0)) (m ((c : Thread nD τ).loc main_arg1)) :=
  (V_rows_narrowed m c).trans (narrow_id _)

end Cert.KernelIdeal.HostPrefix

end
-- ==== Proof.RefMessage.lean ====
/-
  The reference's messages.

  Before its final scatter-sum the reference forms `(rows · Wᵀ) + b` on the host: a transpose of the weights,
  one matrix product contracting the 64 features, and the bias broadcast down the rows. Read at an entry
  `(e, o)` this is `Σ_k rows(e, k) · W(o, k) + b(o)`: the message array `msg rows W b`, the same function the
  kernel's region leaves in its output array.
-/
import proofs.«150592_j52046413693115_1_alg».proof.Proof.Gen.ReferenceIdeal.Read
import proofs.«150592_j52046413693115_1_alg».proof.Proof.MessageSpec

noncomputable section

namespace Cert.ReferenceIdeal.RefMessage

open Cert.ReferenceIdeal Cert.ReferenceIdeal.Read
open Idealize.ShloMosaic Idealize.ShloMosaic.ValueIdx

/-- The reference's array of messages is `msg` of its scaled source rows, the weights and the bias. -/
theorem messages_eq (a0 : (⟨S100000x64, .f32⟩ : BufTy).Contents (Elt Ideal)) (a1 : (⟨S2x1600000, .i32⟩ : BufTy).Contents (Elt Ideal))
    (a2 : (⟨S64x64, .f32⟩ : BufTy).Contents (Elt Ideal)) (a3 : (⟨S64, .f32⟩ : BufTy).Contents (Elt Ideal)) :
    val_main_v42 (F := Ideal) a0 a1 a2 a3 = Cert.Message.msg (val_main_v37 (F := Ideal) a0 a1) a2 a3 := by
  funext i
  obtain ⟨e, o, rfl⟩ : ∃ (e : Fin 1600000) (o : Fin 64), i = ix2 e o := ⟨i 0, i 1, eq_ix2 i⟩
  rw [val_main_v42_apply, val_main_v39_apply, val_main_v41_apply, val_main_v40_apply, Cert.Message.msg_ix2, Ideal.addf_def]
  refine congrArg₂ (· + ·) (Finset.sum_congr rfl fun k _ => ?_) ?_
  · rw [val_main_v38_apply]
    have hl : lidx_main_v39 (ix2 e o) k = ix2 e k := funext fun a => Fin.ext (by
      match a with
      | ⟨0, _⟩ => rfl
      | ⟨1, _⟩ => rfl)
    have hr : idx_main_v38 (ridx_main_v39 (ix2 e o) k) = ix2 o k := funext fun a => Fin.ext (by
      match a with
      | ⟨0, _⟩ => rfl
      | ⟨1, _⟩ => rfl)
    rw [hl, hr]
  · have hb : idx_main_v40 (idx_main_v41 (ix2 e o)) = ix1 o := funext fun a => Fin.ext (by
      match a with
      | ⟨0, _⟩ => rfl)
    rw [hb]

end Cert.ReferenceIdeal.RefMessage

end
-- ==== Proof.lean ====
/-
  A graph layer's messages, summed per target node: the kernel program against its reference, over the
  extended reals.

  Both programs take node features `[100000, 64]`, an edge list `[2, 1600000]` (sources, targets), weights
  `[64, 64]` and a bias `[64]`. Both compute, for every edge `e`,
      rows(e, ·) = features(src e, ·) · 1 / (sqrt(deg(tgt e) · deg(src e)) + ε),      deg = in-degree,
      msg(e, o)  = Σ_{k < 64} rows(e, k) · W(o, k) + b(o),
  and return `out(n, ·) = Σ_{e : tgt e = n} msg(e, ·)` by one scatter-add. The reference forms `msg` by one matrix
  product on the host; the kernel program forms it in a region of 100 grid steps, 16000 edges each, as a
  product with the transposed weights into a zero accumulator plus the broadcast bias, on operands narrowed to
  a shorter float format (the identity here).

  The proof: the region's output array is `msg` of the arrays the region finds (Proof/BlockProduct.lean for
  one stored entry, Proof/RegionValue.lean from the 100 blocks to the array); the lines after the region are
  the scatter-add of that array (Proof/KernelRun.lean); the arrays the region finds are the reference's own
  stages of the same arguments (Proof/HostStages.lean, Proof/HostPrefix.lean); and the reference's array before
  its scatter-add is the same `msg` (Proof/RefMessage.lean). Every sum is over the same 64 features in the same
  order on both sides, so no input needs to be finite for the two results to agree. The three frames are the
  programs' generated runs; the idealisation rewrote nothing, so its conjunct is trivial.
-/
import proofs.«150592_j52046413693115_1_alg».proof.Defs
import proofs.«150592_j52046413693115_1_alg».proof.Proof.Gen.Kernel
import proofs.«150592_j52046413693115_1_alg».proof.Proof.Gen.Kernel.Skeleton
import proofs.«150592_j52046413693115_1_alg».proof.Proof.Gen.Kernel.Launch
import proofs.«150592_j52046413693115_1_alg».proof.Proof.Gen.Kernel.Points
import proofs.«150592_j52046413693115_1_alg».proof.Proof.Gen.Kernel.Frame
import proofs.«150592_j52046413693115_1_alg».proof.Proof.Gen.KernelIdeal
import proofs.«150592_j52046413693115_1_alg».proof.Proof.Gen.KernelIdeal.Skeleton
import proofs.«150592_j52046413693115_1_alg».proof.Proof.Gen.KernelIdeal.Launch
import proofs.«150592_j52046413693115_1_alg».proof.Proof.Gen.KernelIdeal.Points
import proofs.«150592_j52046413693115_1_alg».proof.Proof.Gen.KernelIdeal.Frame
import proofs.«150592_j52046413693115_1_alg».proof.Proof.Gen.ReferenceIdeal
import proofs.«150592_j52046413693115_1_alg».proof.Proof.Gen.ReferenceIdeal.Run
import proofs.«150592_j52046413693115_1_alg».proof.Proof.Gen.ReferenceIdeal.Read
import proofs.«150592_j52046413693115_1_alg».proof.Proof.Gen.Pre_finite_inputs
import proofs.«150592_j52046413693115_1_alg».proof.Proof.KernelRun
import proofs.«150592_j52046413693115_1_alg».proof.Proof.HostPrefix
import proofs.«150592_j52046413693115_1_alg».proof.Proof.RefMessage
import Idealize.ShloMosaic.Adequacy
import Idealize.ShloMosaic.Init

noncomputable section

namespace Cert.Proof

open Idealize.ShloMosaic Idealize.ShloMosaic.TcCoe Idealize.SL.Sem

/-- The kernel program's result — the scatter-add, at the target indices, of the messages of the scaled rows,
    weights and bias as its region finds them — is the reference's result function of the same four arguments. -/
theorem kernel_result (m : (ℓ : Loc Cert.KernelIdeal.nD Cert.KernelIdeal.τ Cert.KernelIdeal.sig) → Buf (Elt Ideal) ℓ)
    (c : Dev Cert.KernelIdeal.nD) :
    Cert.KernelIdeal.KernelRun.aggregate (Cert.KernelIdeal.Gen.V m c Cert.KernelIdeal.main_v3)
        (Cert.Message.msg (Cert.KernelIdeal.Gen.V m c Cert.KernelIdeal.main_v38) (Cert.KernelIdeal.Gen.V m c Cert.KernelIdeal.main_arg2)
          (Cert.KernelIdeal.Gen.V m c Cert.KernelIdeal.main_arg3))
      = Cert.ReferenceIdeal.Read.val_main_v45 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  rw [Cert.KernelIdeal.HostPrefix.V_targets m c, Cert.KernelIdeal.HostPrefix.V_rows m c,
    Cert.KernelIdeal.Gen.V_main_arg2 m c, Cert.KernelIdeal.Gen.V_main_arg3 m c,
    Cert.KernelIdeal.HostStages.tgt_eq, Cert.KernelIdeal.HostStages.rows_eq,
    ← Cert.ReferenceIdeal.RefMessage.messages_eq]
  rfl

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the four arguments both programs end at the reference's result function of
    those arguments. -/
theorem algebraic : Cert.algebraic_KernelIdeal_ReferenceIdeal := by
  intro m ρ m' ρ' _ hagree
  refine ⟨fun c => Cert.ReferenceIdeal.Read.val_main_v45 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => ⟨(h c).1.trans (kernel_result m c), (h c).2⟩)
      (Cert.KernelIdeal.KernelRun.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v45_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
